-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x10 : Shape := ⟨3, ![4, 4096, 10]⟩
abbrev S16384x10 : Shape := ⟨2, ![16384, 10]⟩
abbrev S10 : Shape := ⟨1, ![10]⟩
abbrev S_ : Shape := ⟨0, ![]⟩

class Facts : Prop where
  bcast_S_S4x4096x10 : S_.BroadcastsInDim S4x4096x10 (![] : Fin 0 → Fin S4x4096x10.rank)
  reducesTo_S4x4096x10_S_d0_1_2 : S4x4096x10.ReducesTo [0, 1, 2] S_
  h_S_ : 0 < S_.numel
  bcast_S_S16384x10 : S_.BroadcastsInDim S16384x10 (![] : Fin 0 → Fin S16384x10.rank)
  reducesTo_S16384x10_S_d0_1 : S16384x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  main_v18

def fn {F : FTy → Type} [FloatOps F] (main_arg0 : FVec F S4x4096x10 .f32) (main_arg1 : FVec F S16384x10 .f32) (main_arg2 : FVec F S10 .f32) (main_arg3 : FVec F S10 .f32) : IVec S_ 1 :=
  let main_v0 : FVec F S4x4096x10 .f32 := Host.absf main_arg0
  let main_cst : FVec F S_ .f32 := constant S_ .f32 0x7F800000#32
  let main_v1 : FVec F S4x4096x10 .f32 := broadcastInDim S4x4096x10 ![] bcast_S_S4x4096x10 main_cst
  let main_v2 : IVec S4x4096x10 1 := cmpf .olt main_v0 main_v1
  let main_c : IVec S_ 1 := constantI S_ 1 1#1
  let main_v3 : IVec S_ 1 := (fun x v => Host.reduce IntOp.andi x v reducesTo_S4x4096x10_S_d0_1_2 h_S_) main_v2 main_c
  let main_v4 : FVec F S16384x10 .f32 := Host.absf main_arg1
  let main_cst_0 : FVec F S_ .f32 := constant S_ .f32 0x7F800000#32
  let main_v5 : FVec F S16384x10 .f32 := broadcastInDim S16384x10 ![] bcast_S_S16384x10 main_cst_0
  let main_v6 : IVec S16384x10 1 := cmpf .olt main_v4 main_v5
  let main_c_1 : IVec S_ 1 := constantI S_ 1 1#1
  let main_v7 : IVec S_ 1 := (fun x v => Host.reduce IntOp.andi x v reducesTo_S16384x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_v13 main_v16
-- ==== Kernel.lean ====
abbrev S4x4096x10 : Shape := ⟨3, ![4, 4096, 10]⟩
abbrev S16384x10 : Shape := ⟨2, ![16384, 10]⟩
abbrev S10 : Shape := ⟨1, ![10]⟩
abbrev S1x4096x10 : Shape := ⟨3, ![1, 4096, 10]⟩
abbrev S4096x10 : Shape := ⟨2, ![4096, 10]⟩
abbrev S_ : Shape := ⟨0, ![]⟩
abbrev S4096x1 : Shape := ⟨2, ![4096, 1]⟩
abbrev S4096x11 : Shape := ⟨2, ![4096, 11]⟩
abbrev S1x10 : Shape := ⟨2, ![1, 10]⟩
abbrev S512x10 : Shape := ⟨2, ![512, 10]⟩
abbrev S512x4096 : Shape := ⟨2, ![512, 4096]⟩
abbrev S512x11 : Shape := ⟨2, ![512, 11]⟩
abbrev S512x1 : Shape := ⟨2, ![512, 1]⟩
abbrev S512 : Shape := ⟨1, ![512]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x10, .f32⟩
  | .hbm, ⟨1, _⟩ => ⟨S16384x10, .f32⟩
  | .hbm, ⟨2, _⟩ => ⟨S10, .f32⟩
  | .hbm, ⟨3, _⟩ => ⟨S10, .f32⟩
  | .hbm, ⟨4, _⟩ => ⟨S1x4096x10, .f32⟩
  | .hbm, ⟨5, _⟩ => ⟨S4096x10, .f32⟩
  | .hbm, ⟨6, _⟩ => ⟨S_, .f32⟩
  | .hbm, ⟨7, _⟩ => ⟨S4096x10, .f32⟩
  | .hbm, ⟨8, _⟩ => ⟨S_, .f32⟩
  | .hbm, ⟨9, _⟩ => ⟨S4096x1, .f32⟩
  | .hbm, ⟨10, _⟩ => ⟨S4096x11, .f32⟩
  | .hbm, ⟨11, _⟩ => ⟨S4096x10, .bf16⟩
  | .hbm, ⟨12, _⟩ => ⟨S4096x11, .bf16⟩
  | .hbm, ⟨13, _⟩ => ⟨S1x10, .f32⟩
  | .hbm, ⟨14, _⟩ => ⟨S1x10, .f32⟩
  | .hbm, ⟨15, _⟩ => ⟨S16384x10, .f32⟩
  | .local _ .vmem, ⟨0, _⟩ => ⟨S512x10, .f32⟩
  | .local _ .vmem, ⟨1, _⟩ => ⟨S512x10, .f32⟩
  | .local _ .vmem, ⟨2, _⟩ => ⟨S4096x10, .bf16⟩
  | .local _ .vmem, ⟨3, _⟩ => ⟨S4096x11, .bf16⟩
  | .local _ .vmem, ⟨4, _⟩ => ⟨S1x10, .f32⟩
  | .local _ .vmem, ⟨5, _⟩ => ⟨S1x10, .f32⟩
  | .local _ .vmem, ⟨6, _⟩ => ⟨S512x10, .f32⟩
  | .local _ .vmem, ⟨7, _⟩ => ⟨S512x10, .f32⟩
  | _, _ => ⟨S4x4096x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x10 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x11 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S4x4096x10_S1x4096x10_1_0_0 : S4x4096x10.Slices ![1, 0, 0] S1x4096x10
  shapeCasts_S1x4096x10_S4096x10 : S1x4096x10.ShapeCasts S4096x10
  reducesTo_S4x4096x10_S4096x10_d0 : S4x4096x10.ReducesTo [0] S4096x10
  h_S_ : 0 < S_.numel
  bcast_S_S4096x1 : S_.BroadcastsInDim S4096x1 (![] : Fin 0 → Fin S4096x1.rank)
  concatenates_S4096x10_S4096x1_S4096x11_d1 : Shape.Concatenates [S4096x10, S4096x1] S4096x11 1
  bitsLt_bf16_f32 : FTy.bits .bf16 < FTy.bits .f32
  shapeCasts_S10_S1x10 : S10.ShapeCasts S1x10
  inb_S512x10_S512x10_0_0 : ∀ a, (![0, 0] : Fin 2 → Nat) a + S512x10.size a ≤ S512x10.size a
  h_S512x10 : 0 < S512x10.numel
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  inb_S4096x11_S4096x11_0_0 : ∀ a, (![0, 0] : Fin 2 → Nat) a + S4096x11.size a ≤ S4096x11.size a
  h_S4096x11 : 0 < S4096x11.numel
  shapeCasts_S4096x11_S4096x11 : S4096x11.ShapeCasts S4096x11
  slices_S512x11_o0_0_S512x10 : S512x11.Slices ![0, 0] S512x10
  slices_S512x11_o0_10_S512x1 : S512x11.Slices ![0, 10] S512x1
  broadcasts_S512x1_S512x10 : S512x1.Broadcasts S512x10
  reduces_S512x10_S512 : S512x10.Reduces [1] S512
  shapeCasts_S512_S512x1 : S512.ShapeCasts S512x1
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  dot_S512x10_S4096x10_S512x4096_1_1_0_0_n_n_wf : DotDims.WF S512x10 S4096x10 S512x4096 [1] [1] [0] [0] [] []
  dot_S512x4096_S4096x11_S512x11_1_0_0_1_n_n_wf : DotDims.WF S512x4096 S4096x11 S512x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10.size a ≤ S16384x10.size a
  hwx0_0 : ∀ i : grid0.Coords, EltTy.bits .f32 = 32 ∨ (Rect.block (s := S16384x10) S512x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x10.size a ≤ S4096x10.size a
  hwx0_1 : ∀ i : grid0.Coords, EltTy.bits .bf16 = 32 ∨ (Rect.block (s := S4096x10) S4096x10.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x11.size a ≤ S4096x11.size a
  hwx0_2 : ∀ i : grid0.Coords, EltTy.bits .bf16 = 32 ∨ (Rect.block (s := S4096x11) S4096x11.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S16384x10.size a
  hwx0_5 : ∀ i : grid0.Coords, EltTy.bits .f32 = 32 ∨ (Rect.block (s := S16384x10) S512x10.size (cc0_transform_5 i) (hinb0_5 i)).WholeWords (EltTy.packing .f32)

variable [Facts₀]

def dot_S512x10_S4096x10_S512x4096_1_1_0_0_n_n : DotDims S512x10 S4096x10 S512x4096 where
  lhsContracting := [1]
  rhsContracting := [1]
  lhsNonContracting := [0]
  rhsNonContracting := [0]
  lhsBatch := []
  rhsBatch := []
  wf := dot_S512x10_S4096x10_S512x4096_1_1_0_0_n_n_wf
def dot_S512x4096_S4096x11_S512x11_1_0_0_1_n_n : DotDims S512x4096 S4096x11 S512x11 where
  lhsContracting := [1]
  rhsContracting := [0]
  lhsNonContracting := [0]
  rhsNonContracting := [1]
  lhsBatch := []
  rhsBatch := []
  wf := dot_S512x4096_S4096x11_S512x11_1_0_0_1_n_n_wf

abbrev win0_0 : Pipeline.Window sig grid0 :=
  Pipeline.Window.ofSpec (Memref.whole main_arg1) S512x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x11.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x10 : Shape := ⟨3, ![4, 4096, 10]⟩
abbrev S16384x10 : Shape := ⟨2, ![16384, 10]⟩
abbrev S10 : Shape := ⟨1, ![10]⟩
abbrev S_ : Shape := ⟨0, ![]⟩
abbrev S4096x10 : Shape := ⟨2, ![4096, 10]⟩
abbrev S1x4096x10 : Shape := ⟨3, ![1, 4096, 10]⟩
abbrev S16384x4096 : Shape := ⟨2, ![16384, 4096]⟩
abbrev S16384 : Shape := ⟨1, ![16384]⟩
abbrev S16384x1 : Shape := ⟨2, ![16384, 1]⟩
abbrev S1x10 : Shape := ⟨2, ![1, 10]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x10, .f32⟩
  | .hbm, ⟨1, _⟩ => ⟨S16384x10, .f32⟩
  | .hbm, ⟨2, _⟩ => ⟨S10, .f32⟩
  | .hbm, ⟨3, _⟩ => ⟨S10, .f32⟩
  | .hbm, ⟨4, _⟩ => ⟨S_, .f32⟩
  | .hbm, ⟨5, _⟩ => ⟨S4096x10, .f32⟩
  | .hbm, ⟨6, _⟩ => ⟨S1x4096x10, .f32⟩
  | .hbm, ⟨7, _⟩ => ⟨S4096x10, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S16384x10, .f32⟩
  | .hbm, ⟨24, _⟩ => ⟨S16384x10, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x10, .f32⟩
  | .hbm, ⟨32, _⟩ => ⟨S16384x10, .f32⟩
  | .hbm, ⟨33, _⟩ => ⟨S16384x10, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x10, .f32⟩
  | .hbm, ⟨41, _⟩ => ⟨S16384x10, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x10, .f32⟩
  | .hbm, ⟨47, _⟩ => ⟨S16384x10, .f32⟩
  | .hbm, ⟨48, _⟩ => ⟨S1x10, .f32⟩
  | .hbm, ⟨49, _⟩ => ⟨S16384x10, .f32⟩
  | .hbm, ⟨50, _⟩ => ⟨S16384x10, .f32⟩
  | .hbm, ⟨51, _⟩ => ⟨S1x10, .f32⟩
  | .hbm, ⟨52, _⟩ => ⟨S16384x10, .f32⟩
  | .hbm, ⟨53, _⟩ => ⟨S16384x10, .f32⟩
  | .hbm, ⟨54, _⟩ => ⟨S1x4096x10, .f32⟩
  | .hbm, ⟨55, _⟩ => ⟨S4096x10, .f32⟩
  | .hbm, ⟨56, _⟩ => ⟨S16384x4096, .f32⟩
  | .hbm, ⟨57, _⟩ => ⟨S_, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384x1, .f32⟩
  | .hbm, ⟨63, _⟩ => ⟨S16384x4096, .f32⟩
  | .hbm, ⟨64, _⟩ => ⟨S16384x4096, .f32⟩
  | .hbm, ⟨65, _⟩ => ⟨S16384x4096, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S16384x4096, .f32⟩
  | .hbm, ⟨70, _⟩ => ⟨S16384x4096, .f32⟩
  | .hbm, ⟨71, _⟩ => ⟨S16384x10, .f32⟩
  | .hbm, ⟨72, _⟩ => ⟨S16384x10, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x10, .f32⟩
  | .hbm, ⟨80, _⟩ => ⟨S16384x10, .f32⟩
  | .hbm, ⟨81, _⟩ => ⟨S16384x10, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x10, .f32⟩
  | .hbm, ⟨89, _⟩ => ⟨S16384x10, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S16384x1, .f32⟩
  | .hbm, ⟨94, _⟩ => ⟨S16384x10, .f32⟩
  | .hbm, ⟨95, _⟩ => ⟨S16384x10, .f32⟩
  | .hbm, ⟨96, _⟩ => ⟨S1x10, .f32⟩
  | .hbm, ⟨97, _⟩ => ⟨S16384x10, .f32⟩
  | .hbm, ⟨98, _⟩ => ⟨S16384x10, .f32⟩
  | .hbm, ⟨99, _⟩ => ⟨S1x10, .f32⟩
  | .hbm, ⟨100, _⟩ => ⟨S16384x10, .f32⟩
  | .hbm, ⟨101, _⟩ => ⟨S16384x10, .f32⟩
  | _, _ => ⟨S4x4096x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]

class Facts₀ : Prop where
  reducesTo_S4x4096x10_S4096x10_d0 : S4x4096x10.ReducesTo [0] S4096x10
  h_S_ : 0 < S_.numel
  slices_S4x4096x10_S1x4096x10_0_0_0 : S4x4096x10.Slices ![0, 0, 0] S1x4096x10
  shapeCasts_S1x4096x10_S4096x10 : S1x4096x10.ShapeCasts S4096x10
  reducesTo_S16384x4096_S16384_d1 : S16384x4096.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  reducesTo_S16384x10_S16384_d1 : S16384x10.ReducesTo [1] S16384
  bcast_S_S16384x1 : S_.BroadcastsInDim S16384x1 (![] : Fin 0 → Fin S16384x1.rank)
  bcast_S16384x1_S16384x10_0_1 : S16384x1.BroadcastsInDim S16384x10 (![0, 1] : Fin 2 → Fin S16384x10.rank)
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  slices_S4x4096x10_S1x4096x10_1_0_0 : S4x4096x10.Slices ![1, 0, 0] S1x4096x10
  dot_S16384x10_S4096x10_S16384x4096_1_1_0_0_n_n_wf : DotDims.WF S16384x10 S4096x10 S16384x4096 [1] [1] [0] [0] [] []
  dot_S16384x4096_S4096x10_S16384x10_1_0_0_1_n_n_wf : DotDims.WF S16384x4096 S4096x10 S16384x10 [1] [0] [0] [1] [] []

variable [Facts₀]

def dot_S16384x10_S4096x10_S16384x4096_1_1_0_0_n_n : DotDims S16384x10 S4096x10 S16384x4096 where
  lhsContracting := [1]
  rhsContracting := [1]
  lhsNonContracting := [0]
  rhsNonContracting := [0]
  lhsBatch := []
  rhsBatch := []
  wf := dot_S16384x10_S4096x10_S16384x4096_1_1_0_0_n_n_wf
def dot_S16384x4096_S4096x10_S16384x10_1_0_0_1_n_n : DotDims S16384x4096 S4096x10 S16384x10 where
  lhsContracting := [1]
  rhsContracting := [0]
  lhsNonContracting := [0]
  rhsNonContracting := [1]
  lhsBatch := []
  rhsBatch := []
  wf := dot_S16384x4096_S4096x10_S16384x10_1_0_0_1_n_n_wf

class Facts : Prop extends Facts₀ where

variable [Facts]
-- ==== Proof.RowMath.lean ====
/-
  One row of the result, as mathematics on the extended reals; no program is imported here.

  A query row `q` (ten entries) is scored against every key row: `score q key m = ∑ d, q d * key m d`.
  The row's attention average is written in two ways.
  * `avgRatio s a c = (∑ m, exp (s m) * a m) / (∑ m, exp (s m) * c m)`: one quotient of two sums, the
    denominator being the numerator's sum taken against a column `c` (a column of ones in the use).
  * `avgSoftmax s M a = ∑ m, (exp (s m - M) / ∑ m', exp (s m' - M)) * a m`: the softmax weights, each
    exponent shifted by a number `M` (the row's greatest score in the use), then the weighted sum.
  For real scores, real values `a`, a REAL shift `M` and `c` the constant one these are equal
  (`avgSoftmax_eq_avgRatio`): `exp (s - M) = exp s / exp M`, the factor `1 / exp M` is common to the
  weight's numerator and denominator and cancels, and a quotient by a nonzero real distributes over a finite
  sum. Both cancelling and distributing need finite numbers, which is why the statement is over reals; the sum
  of the exponentials is positive because there is at least one key.

  Added to the query row and normalised (`layerNorm`: subtract the row's mean, multiply by the reciprocal
  square root of the variance plus `eps`, scale by `γ`, shift by `β`), either average gives the output row
  (`rowK`, `rowR`), and the two rows agree under the same hypotheses (`rowR_eq_rowK`). Nothing is asked of
  `γ` and `β`, nor of the normalisation: it is the same function of the same row on both sides.
-/
import Idealize.ShloMosaic.PureOps.Ideal
import Mathlib.Algebra.BigOperators.Field
import Mathlib.Algebra.Order.BigOperators.Group.Finset
import Mathlib.Analysis.SpecialFunctions.Exp
import Mathlib.Tactic.FieldSimp
import Mathlib.Tactic.Ring

noncomputable section

namespace Cert.Routing

open Idealize.ShloMosaic

variable {ι κ : Type} [Fintype ι] [Fintype κ]

/-! ## The definitions -/

/-- The score of a query row against key row `m`: their inner product. -/
def score (q : κ → EReal) (key : ι → κ → EReal) (m : ι) : EReal := ∑ d, q d * key m d

/-- The average as ONE quotient: the exponentials' sum against `a` over their sum against `c`. -/
def avgRatio (s a c : ι → EReal) : EReal :=
  Ideal.div (∑ m, Ideal.exp (s m) * a m) (∑ m, Ideal.exp (s m) * c m)

/-- The average as a softmax-weighted sum, every exponent shifted by `M`. -/
def avgSoftmax (s : ι → EReal) (M : EReal) (a : ι → EReal) : EReal :=
  ∑ m, Ideal.div (Ideal.exp (s m - M)) (∑ m', Ideal.exp (s m' - M)) * a m

/-- The divisor of a row's mean and variance: the f32 word of ten, as both programs write it. -/
abbrev ten : EReal := Ideal.ofBits .f32 0x41200000#32
/-- The number added to the variance: the f32 word nearest to 1e-5, as both programs write it. -/
abbrev eps : EReal := Ideal.ofBits .f32 0x3727C5AC#32

/-- A row's mean. -/
def rowMean (x : κ → EReal) : EReal := Ideal.div (∑ d, x d) ten
/-- A row's (biased) variance: the mean of the squared deviations. -/
def rowVar (x : κ → EReal) : EReal := Ideal.div (∑ d, (x d - rowMean x) * (x d - rowMean x)) ten
/-- A row normalised, scaled and shifted, at entry `d`. -/
def layerNorm (x γ β : κ → EReal) (d : κ) : EReal :=
  (x d - rowMean x) * Ideal.rsqrt (rowVar x + eps) * γ d + β d

/-- The variance is the mean of the squared deviations, in those words. -/
theorem rowVar_eq (x : κ → EReal) : rowVar x = rowMean (fun d => (x d - rowMean x) * (x d - rowMean x)) := rfl

/-- The output row through the one-quotient average. -/
def rowK (q : κ → EReal) (key A : ι → κ → EReal) (c : ι → EReal) (γ β : κ → EReal) (d : κ) : EReal :=
  layerNorm (fun d' => q d' + avgRatio (score q key) (fun m => A m d') c) γ β d

/-- The output row through the shifted softmax. -/
def rowR (q : κ → EReal) (key A : ι → κ → EReal) (M : EReal) (γ β : κ → EReal) (d : κ) : EReal :=
  layerNorm (fun d' => q d' + avgSoftmax (score q key) M (fun m => A m d')) γ β d

/-! ## Sums of reals inside the extended reals -/

/-- A finite sum of reals, read in the extended reals, is the real sum. -/
theorem coe_sum {α : Type} (S : Finset α) (f : α → ℝ) :
    ∑ m ∈ S, (f m : EReal) = ((∑ m ∈ S, f m : ℝ) : EReal) := by
  classical
  induction S using Finset.induction_on with
  | empty => simp
  | insert a S ha ih => rw [Finset.sum_insert ha, Finset.sum_insert ha, ih, EReal.coe_add]

/-- Real scores: the inner product of two real rows is the real inner product. -/
theorem score_coe (q : κ → ℝ) (key : ι → κ → ℝ) (m : ι) :
    score (fun d => (q d : EReal)) (fun m d => (key m d : EReal)) m = ((∑ d, q d * key m d : ℝ) : EReal) := by
  unfold score
  simp only [← EReal.coe_mul]
  exact coe_sum _ _

/-! ## The law between the two averages -/

/-- Over the reals: a common factor `1 / exp M` leaves the softmax weights, and the quotient by the
    exponentials' sum leaves the weighted sum. -/
theorem softmax_shift_real [Nonempty ι] (s a : ι → ℝ) (M : ℝ) :
    ∑ m, Real.exp (s m - M) * (1 / ∑ m', Real.exp (s m' - M)) * a m
      = (∑ m, Real.exp (s m) * a m) * (1 / ∑ m, Real.exp (s m) * 1) := by
  have hE : Real.exp M ≠ 0 := (Real.exp_pos M).ne'
  have hZ : (∑ m, Real.exp (s m)) ≠ 0 :=
    (Finset.sum_pos (fun m _ => Real.exp_pos (s m)) Finset.univ_nonempty).ne'
  have hsum : (∑ m', Real.exp (s m' - M)) = (∑ m', Real.exp (s m')) / Real.exp M := by
    rw [Finset.sum_div]; exact Finset.sum_congr rfl fun m' _ => Real.exp_sub _ _
  simp only [mul_one]
  rw [hsum, Finset.sum_mul]
  refine Finset.sum_congr rfl fun m _ => ?_
  rw [Real.exp_sub]
  field_simp

/-- On the extended reals, for real scores, real values and a real shift: the shifted softmax average is
    the one-quotient average against the column of ones. -/
theorem avgSoftmax_eq_avgRatio [Nonempty ι] (s a : ι → ℝ) (M : ℝ) :
    avgSoftmax (fun m => (s m : EReal)) (M : EReal) (fun m => (a m : EReal))
      = avgRatio (fun m => (s m : EReal)) (fun m => (a m : EReal)) (fun _ => ((1 : ℝ) : EReal)) := by
  have h1 : (∑ m', Real.exp (s m' - M)) ≠ 0 :=
    (Finset.sum_pos (fun m _ => Real.exp_pos (s m - M)) Finset.univ_nonempty).ne'
  have h2 : (∑ m, Real.exp (s m) * 1) ≠ 0 :=
    (Finset.sum_pos (fun m _ => mul_pos (Real.exp_pos (s m)) one_pos) Finset.univ_nonempty).ne'
  unfold avgSoftmax avgRatio
  simp only [← EReal.coe_sub, Ideal.exp_coe, ← EReal.coe_mul, coe_sum]
  rw [Ideal.div_coe h2]
  simp only [Ideal.div_coe h1, ← EReal.coe_mul, coe_sum]
  exact congrArg _ (softmax_shift_real s a M)

/-! ## The two output rows agree -/

/-- For a real query row, real keys, real values and a real shift, the row through the shifted softmax is
    the row through the one quotient against the column of ones. -/
theorem rowR_eq_rowK [Nonempty ι] (q : κ → EReal) (key A : ι → κ → EReal) (M : EReal) (γ β : κ → EReal)
    (hq : ∀ d, ∃ r : ℝ, q d = r) (hkey : ∀ m d, ∃ r : ℝ, key m d = r) (hA : ∀ m d, ∃ r : ℝ, A m d = r)
    (hM : ∃ r : ℝ, M = r) :
    rowR q key A M γ β = rowK q key A (fun _ => ((1 : ℝ) : EReal)) γ β := by
  choose qR hqR using hq
  choose keyR hkeyR using hkey
  choose AR hAR using hA
  obtain ⟨MR, rfl⟩ := hM
  obtain rfl : q = fun d => (qR d : EReal) := funext hqR
  obtain rfl : key = fun m d => (keyR m d : EReal) := funext fun m => funext (hkeyR m)
  obtain rfl : A = fun m d => (AR m d : EReal) := funext fun m => funext (hAR m)
  funext d
  unfold rowR rowK
  refine congrArg (fun x => layerNorm x γ β d) (funext fun d' => congrArg (_ + ·) ?_)
  have hs : score (fun d => (qR d : EReal)) (fun m d => (keyR m d : EReal))
      = fun m => ((∑ d, qR d * keyR m d : ℝ) : EReal) := funext fun m => score_coe qR keyR m
  rw [hs]
  exact avgSoftmax_eq_avgRatio (fun m => ∑ d, qR d * keyR m d) (fun m => AR m d') MR

end Cert.Routing

end
-- ==== Proof.KernelPayload.lean ====
/-
  What one grid point computes, entry by entry.

  The body's value is one pure term of the five blocks it loads: a block of 512 query rows `x0`, the 4096 key
  rows `x1`, the 4096 value rows `x2` (eleven columns: ten of values, the eleventh the column the denominator is
  summed against), and the two rows `x3`, `x4` that scale and shift. The term is cut here into four stages
  (the scores, the product with the eleven columns, the query row plus the quotient of that product's first ten
  columns by its eleventh, and the row normalisation) and is their composition by unfolding (`pay_eq`).

  Each stage is then read at an entry: a matrix product into the zero accumulator is the sum over the contracted
  coordinate of the operands' products; a slice moves the column by its offset; a column `[512, 1]` spread over
  ten columns, or a row `[1, 10]` spread over 512 rows, reads the column's or the row's one entry; a sum along a
  row, kept as a column, is the sum over the row's ten coordinates. Changes of float format are the identity on
  the extended reals. Together: entry `(p, d)` of the block is `Routing.rowK` of row `p` of `x0` against the
  key and value rows (`pay_apply`).
-/
import proofs.«415658_j76501957476790_3_alg».proof.Proof.Gen.KernelIdeal.Skeleton
import proofs.«415658_j76501957476790_3_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace Cert.Routing.Kernel

open Cert.KernelIdeal Cert.KernelIdeal.Gen Idealize.ShloMosaic Idealize.ShloMosaic.ValueIdx Cert.Routing

/-! ## The two matrix products, their operand indices coordinate by coordinate -/

theorem lhs_scores_0 (i : S512x4096.Idx) (q : dot_S512x10_S4096x10_S512x4096_1_1_0_0_n_n.contr.Idx) :
    (dot_S512x10_S4096x10_S512x4096_1_1_0_0_n_n.lhsIdx i q 0).val = (i 0).val := by
  unfold DotDims.lhsIdx
  rw [dif_neg (show ¬(0 : Fin S512x10.rank) ∈ dot_S512x10_S4096x10_S512x4096_1_1_0_0_n_n.lhsBatch by decide), dif_pos (show (0 : Fin S512x10.rank) ∈ dot_S512x10_S4096x10_S512x4096_1_1_0_0_n_n.lhsNonContracting by decide)]
  rfl
theorem lhs_scores_1 (i : S512x4096.Idx) (q : dot_S512x10_S4096x10_S512x4096_1_1_0_0_n_n.contr.Idx) :
    (dot_S512x10_S4096x10_S512x4096_1_1_0_0_n_n.lhsIdx i q 1).val = (q ⟨0, by decide⟩).val :=
  dot_S512x10_S4096x10_S512x4096_1_1_0_0_n_n.lhsIdx_val_of_single rfl i q
theorem rhs_scores_0 (i : S512x4096.Idx) (q : dot_S512x10_S4096x10_S512x4096_1_1_0_0_n_n.contr.Idx) :
    (dot_S512x10_S4096x10_S512x4096_1_1_0_0_n_n.rhsIdx i q 0).val = (i 1).val := by
  unfold DotDims.rhsIdx
  rw [dif_neg (show ¬(0 : Fin S4096x10.rank) ∈ dot_S512x10_S4096x10_S512x4096_1_1_0_0_n_n.rhsBatch by decide), dif_pos (show (0 : Fin S4096x10.rank) ∈ dot_S512x10_S4096x10_S512x4096_1_1_0_0_n_n.rhsNonContracting by decide)]
  rfl
theorem rhs_scores_1 (i : S512x4096.Idx) (q : dot_S512x10_S4096x10_S512x4096_1_1_0_0_n_n.contr.Idx) :
    (dot_S512x10_S4096x10_S512x4096_1_1_0_0_n_n.rhsIdx i q 1).val = (q ⟨0, by decide⟩).val :=
  dot_S512x10_S4096x10_S512x4096_1_1_0_0_n_n.rhsIdx_val_of_single rfl i q

theorem lhs_aug_0 (i : S512x11.Idx) (q : dot_S512x4096_S4096x11_S512x11_1_0_0_1_n_n.contr.Idx) :
    (dot_S512x4096_S4096x11_S512x11_1_0_0_1_n_n.lhsIdx i q 0).val = (i 0).val := by
  unfold DotDims.lhsIdx
  rw [dif_neg (show ¬(0 : Fin S512x4096.rank) ∈ dot_S512x4096_S4096x11_S512x11_1_0_0_1_n_n.lhsBatch by decide), dif_pos (show (0 : Fin S512x4096.rank) ∈ dot_S512x4096_S4096x11_S512x11_1_0_0_1_n_n.lhsNonContracting by decide)]
  rfl
theorem lhs_aug_1 (i : S512x11.Idx) (q : dot_S512x4096_S4096x11_S512x11_1_0_0_1_n_n.contr.Idx) :
    (dot_S512x4096_S4096x11_S512x11_1_0_0_1_n_n.lhsIdx i q 1).val = (q ⟨0, by decide⟩).val :=
  dot_S512x4096_S4096x11_S512x11_1_0_0_1_n_n.lhsIdx_val_of_single rfl i q
theorem rhs_aug_0 (i : S512x11.Idx) (q : dot_S512x4096_S4096x11_S512x11_1_0_0_1_n_n.contr.Idx) :
    (dot_S512x4096_S4096x11_S512x11_1_0_0_1_n_n.rhsIdx i q 0).val = (q ⟨0, by decide⟩).val :=
  dot_S512x4096_S4096x11_S512x11_1_0_0_1_n_n.rhsIdx_val_of_single rfl i q
theorem rhs_aug_1 (i : S512x11.Idx) (q : dot_S512x4096_S4096x11_S512x11_1_0_0_1_n_n.contr.Idx) :
    (dot_S512x4096_S4096x11_S512x11_1_0_0_1_n_n.rhsIdx i q 1).val = (i 1).val := by
  unfold DotDims.rhsIdx
  rw [dif_neg (show ¬(1 : Fin S4096x11.rank) ∈ dot_S512x4096_S4096x11_S512x11_1_0_0_1_n_n.rhsBatch by decide), dif_pos (show (1 : Fin S4096x11.rank) ∈ dot_S512x4096_S4096x11_S512x11_1_0_0_1_n_n.rhsNonContracting by decide)]
  rfl

/-- Queries times keys, contracted over the ten coordinates, into the zero accumulator. -/
theorem matmul_scores_apply (l : FVec Ideal S512x10 .bf16) (r : FVec Ideal S4096x10 .bf16) (p : Fin 512) (m : Fin 4096) :
    matmul dot_S512x10_S4096x10_S512x4096_1_1_0_0_n_n none l r (constant (F := Ideal) S512x4096 .f32 0x00000000#32) (ix2 p m)
      = ∑ k : Fin 10, l (ix2 p k) * r (ix2 m k) := by
  simp only [matmul]
  rw [Ideal.matmul_constant_zero_apply, ← Equiv.sum_comp (ValueIdx.contrEquiv1 dot_S512x10_S4096x10_S512x4096_1_1_0_0_n_n 10 rfl rfl).symm]
  refine Finset.sum_congr rfl fun k _ => ?_
  have hk := ValueIdx.contrEquiv1_symm_val dot_S512x10_S4096x10_S512x4096_1_1_0_0_n_n 10 rfl rfl k
  have el : dot_S512x10_S4096x10_S512x4096_1_1_0_0_n_n.lhsIdx (ix2 p m) ((ValueIdx.contrEquiv1 dot_S512x10_S4096x10_S512x4096_1_1_0_0_n_n 10 rfl rfl).symm k) = ix2 p k := funext fun a => Fin.ext (by
    match a with
    | ⟨0, _⟩ => exact lhs_scores_0 _ _
    | ⟨1, _⟩ => exact (lhs_scores_1 _ _).trans hk)
  have er : dot_S512x10_S4096x10_S512x4096_1_1_0_0_n_n.rhsIdx (ix2 p m) ((ValueIdx.contrEquiv1 dot_S512x10_S4096x10_S512x4096_1_1_0_0_n_n 10 rfl rfl).symm k) = ix2 m k := funext fun a => Fin.ext (by
    match a with
    | ⟨0, _⟩ => exact rhs_scores_0 _ _
    | ⟨1, _⟩ => exact (rhs_scores_1 _ _).trans hk)
  rw [el, er]

/-- Weights times the eleven value columns, contracted over the 4096 keys, into the zero accumulator. -/
theorem matmul_aug_apply (l : FVec Ideal S512x4096 .bf16) (r : FVec Ideal S4096x11 .bf16) (p : Fin 512) (j : Fin 11) :
    matmul dot_S512x4096_S4096x11_S512x11_1_0_0_1_n_n none l r (constant (F := Ideal) S512x11 .f32 0x00000000#32) (ix2 p j)
      = ∑ k : Fin 4096, l (ix2 p k) * r (ix2 k j) := by
  simp only [matmul]
  rw [Ideal.matmul_constant_zero_apply, ← Equiv.sum_comp (ValueIdx.contrEquiv1 dot_S512x4096_S4096x11_S512x11_1_0_0_1_n_n 4096 rfl rfl).symm]
  refine Finset.sum_congr rfl fun k _ => ?_
  have hk := ValueIdx.contrEquiv1_symm_val dot_S512x4096_S4096x11_S512x11_1_0_0_1_n_n 4096 rfl rfl k
  have el : dot_S512x4096_S4096x11_S512x11_1_0_0_1_n_n.lhsIdx (ix2 p j) ((ValueIdx.contrEquiv1 dot_S512x4096_S4096x11_S512x11_1_0_0_1_n_n 4096 rfl rfl).symm k) = ix2 p k := funext fun a => Fin.ext (by
    match a with
    | ⟨0, _⟩ => exact lhs_aug_0 _ _
    | ⟨1, _⟩ => exact (lhs_aug_1 _ _).trans hk)
  have er : dot_S512x4096_S4096x11_S512x11_1_0_0_1_n_n.rhsIdx (ix2 p j) ((ValueIdx.contrEquiv1 dot_S512x4096_S4096x11_S512x11_1_0_0_1_n_n 4096 rfl rfl).symm k) = ix2 k j := funext fun a => Fin.ext (by
    match a with
    | ⟨0, _⟩ => exact (rhs_aug_0 _ _).trans hk
    | ⟨1, _⟩ => exact rhs_aug_1 _ _)
  rw [el, er]

/-! ## A column kept beside the rows: `[512] → [512, 1]`, `[512, 1] → [512, 10]`, and a row's sum -/

/-- A vector of 512 recast as a column reads the vector's entry. -/
theorem column_of_vector_apply {α : Type} (v : S512.Idx → α) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_one, Shape.rowMajor_val_two]
    show p.val = p.val * 1 + 0
    omega)

/-- A column spread over ten columns reads the column's entry of that row. -/
theorem column_spread_apply {α : Type} (v : S512x1.Idx → α) (p : Fin 512) (d : Fin 10) :
    broadcastTo S512x10 v broadcasts_S512x1_S512x10 (ix2 p d) = v (ix2 p (0 : Fin 1)) :=
  broadcastTo_apply v broadcasts_S512x1_S512x10 (ix2 p d) (ix2 p (0 : Fin 1)) (fun a => match a with
    | ⟨0, _⟩ => by show p.val = if (512 : Nat) = 1 then 0 else p.val; rw [if_neg (by decide)]
    | ⟨1, _⟩ => by show 0 = if (1 : Nat) = 1 then 0 else d.val; rw [if_pos rfl])

/-- The one row spread over 512 rows reads the row's entry of that column. -/
theorem row_spread_apply {α : Type} (v : S1x10.Idx → α) (p : Fin 512) (d : Fin 10) :
    broadcastTo S512x10 v broadcasts_S1x10_S512x10 (ix2 p d) = v (ix2 (0 : Fin 1) d) :=
  broadcastTo_1b_ab_apply v broadcasts_S1x10_S512x10 p d

/-- The sum along a row of a block, from the neutral accumulator: the sum over the row's ten coordinates.
    (The accumulator's evidence is taken as the body's text carries it: the zero word equal to itself.) -/
theorem row_sum_apply (v : FVec Ideal S512x10 .f32) (hφ : FKind.Formats .f32)
    (hacc : (0x00000000#32 : BitVec 32) = 0x00000000#32) (p : Fin 512) :
    multiReduction .add [1] S512 v 0x00000000#32 reduces_S512x10_S512 hφ hacc (ix1 p) = ∑ k : Fin 10, v (ix2 p k) := by
  refine (Ideal.multiReduction_add_single v 0x00000000#32 reduces_S512x10_S512 hφ hacc (ix1 p)).trans ?_
  refine Finset.sum_congr rfl fun k _ => congrArg v ?_
  funext a
  match a with
  | ⟨0, _⟩ => rfl
  | ⟨1, _⟩ => rfl

/-- The first ten of eleven columns, cut out: the same entry. -/
theorem first_ten_apply {α : Type} (v : S512x11.Idx → α) (p : Fin 512) (d : Fin 10) :
    extractStridedSlice S512x10 ![0, 0] v slices_S512x11_o0_0_S512x10 (ix2 p d) = v (ix2 p d.castSucc) :=
  extractStridedSlice_apply ![0, 0] v slices_S512x11_o0_0_S512x10 (ix2 p d) (ix2 p d.castSucc) (fun a => match a with
    | ⟨0, _⟩ => by show p.val = 0 + p.val; omega
    | ⟨1, _⟩ => by show d.val = 0 + d.val; omega)

/-- The eleventh column, cut out as a column: the entry in column ten. -/
theorem eleventh_apply {α : Type} (v : S512x11.Idx → α) (p : Fin 512) :
    extractStridedSlice S512x1 ![0, 10] v slices_S512x11_o0_10_S512x1 (ix2 p (0 : Fin 1)) = v (ix2 p (Fin.last 10)) :=
  extractStridedSlice_apply ![0, 10] v slices_S512x11_o0_10_S512x1 (ix2 p (0 : Fin 1)) (ix2 p (Fin.last 10)) (fun a => match a with
    | ⟨0, _⟩ => by show p.val = 0 + p.val; omega
    | ⟨1, _⟩ => by show (10 : Nat) = 10 + 0; omega)

/-- The reciprocal square root of a vector, at an entry. -/
theorem rsqrt_apply {s : Shape} (v : FVec Ideal s .f32) (i : s.Idx) : rsqrt v i = Ideal.rsqrt (v i) := rfl
/-- The exponential of a vector, at an entry. -/
theorem exp_apply {s : Shape} (v : FVec Ideal s .f32) (i : s.Idx) : exp v i = Ideal.exp (v i) := rfl
/-- A scalar constant's word denotes what the word denotes. -/
theorem scalar_ofBits (b : BitVec 32) : Scalar.ofBits (F := Ideal) .f32 b = Ideal.ofBits .f32 b := rfl

/-! ## The stages -/

/-- Every query row of the block scored against every key row. -/
def scores (x0 : FVec Ideal S512x10 .f32) (x1 : FVec Ideal S4096x10 .bf16) : FVec Ideal S512x4096 .f32 :=
  matmul dot_S512x10_S4096x10_S512x4096_1_1_0_0_n_n none (truncf .bf16 x0 bitsLt_bf16_f32) (shapeCast S4096x10 x1 shapeCasts_S4096x10_S4096x10) (constant S512x4096 .f32 0x00000000#32)

/-- The exponentials of the scores summed against each of the eleven columns. -/
def aug (x0 : FVec Ideal S512x10 .f32) (x1 : FVec Ideal S4096x10 .bf16) (x2 : FVec Ideal S4096x11 .bf16) : FVec Ideal S512x11 .f32 :=
  matmul dot_S512x4096_S4096x11_S512x11_1_0_0_1_n_n none (truncf .bf16 (exp (scores x0 x1)) bitsLt_bf16_f32) (shapeCast S4096x11 x2 shapeCasts_S4096x11_S4096x11) (constant S512x11 .f32 0x00000000#32)

/-- The query rows plus the first ten columns' sums over the eleventh's. -/
def summed (x0 : FVec Ideal S512x10 .f32) (x1 : FVec Ideal S4096x10 .bf16) (x2 : FVec Ideal S4096x11 .bf16) : FVec Ideal S512x10 .f32 :=
  addf x0 (divf (extractStridedSlice S512x10 ![0, 0] (aug x0 x1 x2) slices_S512x11_o0_0_S512x10)
    (broadcastTo S512x10 (extractStridedSlice S512x1 ![0, 10] (aug x0 x1 x2) slices_S512x11_o0_10_S512x1) broadcasts_S512x1_S512x10))

/-- Each row's sum over ten, as a column. -/
def meanCol (v : FVec Ideal S512x10 .f32) : FVec Ideal S512x1 .f32 :=
  divf (shapeCast S512x1 (multiReduction .add [1] S512 v 0x00000000#32 reduces_S512x10_S512 (.inl rfl) rfl) shapeCasts_S512_S512x1)
    (broadcast S512x1 (Scalar.ofBits .f32 0x41200000#32))

/-- Each row less its mean. -/
def centered (v : FVec Ideal S512x10 .f32) : FVec Ideal S512x10 .f32 :=
  subf v (broadcastTo S512x10 (meanCol v) broadcasts_S512x1_S512x10)

/-- Each row normalised, scaled by `x3`'s row and shifted by `x4`'s. -/
def lnBlock (v : FVec Ideal S512x10 .f32) (x3 x4 : FVec Ideal S1x10 .f32) : FVec Ideal S512x10 .f32 :=
  addf (mulf (mulf (centered v)
        (broadcastTo S512x10 (rsqrt (addf (meanCol (mulf (centered v) (centered v))) (broadcast S512x1 (Scalar.ofBits .f32 0x3727C5AC#32)))) broadcasts_S512x1_S512x10))
      (broadcastTo S512x10 (shapeCast S1x10 x3 shapeCasts_S1x10_S1x10) broadcasts_S1x10_S512x10))
    (broadcastTo S512x10 (shapeCast S1x10 x4 shapeCasts_S1x10_S1x10) broadcasts_S1x10_S512x10)

/-- The body's value is the composition of the stages. -/
theorem pay_eq (x0 : FVec Ideal S512x10 .f32) (x1 : FVec Ideal S4096x10 .bf16) (x2 : FVec Ideal S4096x11 .bf16) (x3 x4 : FVec Ideal S1x10 .f32) :
    k0_pay1 (F := Ideal) x0 x1 x2 x3 x4 = lnBlock (summed x0 x1 x2) x3 x4 := rfl

/-! ## The stages at an entry -/

theorem scores_apply (x0 : FVec Ideal S512x10 .f32) (x1 : FVec Ideal S4096x10 .bf16) (p : Fin 512) (m : Fin 4096) :
    scores x0 x1 (ix2 p m) = score (fun d : Fin 10 => x0 (ix2 p d)) (fun (m : Fin 4096) (d : Fin 10) => x1 (ix2 m d)) m := by
  unfold scores score
  rw [matmul_scores_apply, shapeCast_self]
  rfl

theorem aug_apply (x0 : FVec Ideal S512x10 .f32) (x1 : FVec Ideal S4096x10 .bf16) (x2 : FVec Ideal S4096x11 .bf16) (p : Fin 512) (j : Fin 11) :
    aug x0 x1 x2 (ix2 p j) = ∑ m : Fin 4096, Ideal.exp (scores x0 x1 (ix2 p m)) * x2 (ix2 m j) := by
  unfold aug
  rw [matmul_aug_apply, shapeCast_self]
  rfl

theorem summed_apply (x0 : FVec Ideal S512x10 .f32) (x1 : FVec Ideal S4096x10 .bf16) (x2 : FVec Ideal S4096x11 .bf16) (p : Fin 512) (d : Fin 10) :
    summed x0 x1 x2 (ix2 p d)
      = x0 (ix2 p d) + avgRatio (fun m : Fin 4096 => scores x0 x1 (ix2 p m)) (fun m => x2 (ix2 m d.castSucc)) (fun m => x2 (ix2 m (Fin.last 10))) := by
  unfold summed avgRatio
  rw [addf_apply, divf_apply, first_ten_apply, column_spread_apply, eleventh_apply, aug_apply, aug_apply]

theorem meanCol_apply (v : FVec Ideal S512x10 .f32) (p : Fin 512) :
    meanCol v (ix2 p (0 : Fin 1)) = rowMean (fun d : Fin 10 => v (ix2 p d)) := by
  unfold meanCol rowMean
  rw [divf_apply, broadcast_apply, column_of_vector_apply, scalar_ofBits]
  exact congrArg (fun s => Ideal.div s (Ideal.ofBits .f32 0x41200000#32)) (row_sum_apply v _ _ p)

theorem centered_apply (v : FVec Ideal S512x10 .f32) (p : Fin 512) (d : Fin 10) :
    centered v (ix2 p d) = v (ix2 p d) - rowMean (fun d : Fin 10 => v (ix2 p d)) := by
  unfold centered
  rw [subf_apply, column_spread_apply, meanCol_apply]

theorem lnBlock_apply (v : FVec Ideal S512x10 .f32) (x3 x4 : FVec Ideal S1x10 .f32) (p : Fin 512) (d : Fin 10) :
    lnBlock v x3 x4 (ix2 p d)
      = layerNorm (fun d : Fin 10 => v (ix2 p d)) (fun d => x3 (ix2 (0 : Fin 1) d)) (fun d => x4 (ix2 (0 : Fin 1) d)) d := by
  have hc : (fun d : Fin 10 => mulf (centered v) (centered v) (ix2 p d))
      = fun d : Fin 10 => (v (ix2 p d) - rowMean fun d => v (ix2 p d)) * (v (ix2 p d) - rowMean fun d => v (ix2 p d)) :=
    funext fun d' => by rw [mulf_apply, centered_apply]
  unfold lnBlock layerNorm
  rw [rowVar_eq, addf_apply, mulf_apply, mulf_apply, column_spread_apply, row_spread_apply, row_spread_apply,
    shapeCast_self, shapeCast_self, centered_apply, rsqrt_apply, addf_apply, broadcast_apply, meanCol_apply, hc, scalar_ofBits]

/-- Entry `(p, d)` of what a point computes: the output row of query row `p` of the block. -/
theorem pay_apply (x0 : FVec Ideal S512x10 .f32) (x1 : FVec Ideal S4096x10 .bf16) (x2 : FVec Ideal S4096x11 .bf16) (x3 x4 : FVec Ideal S1x10 .f32)
    (p : Fin 512) (d : Fin 10) :
    k0_pay1 (F := Ideal) x0 x1 x2 x3 x4 (ix2 p d)
      = rowK (fun d : Fin 10 => x0 (ix2 p d)) (fun (m : Fin 4096) (d : Fin 10) => x1 (ix2 m d))
          (fun (m : Fin 4096) (d : Fin 10) => x2 (ix2 m d.castSucc)) (fun m : Fin 4096 => x2 (ix2 m (Fin.last 10)))
          (fun d => x3 (ix2 (0 : Fin 1) d)) (fun d => x4 (ix2 (0 : Fin 1) d)) d := by
  rw [pay_eq, lnBlock_apply]
  unfold rowK
  refine congrArg (fun x => layerNorm x _ _ d) (funext fun d' => ?_)
  rw [summed_apply]
  refine congrArg (fun s => x0 (ix2 p d') + avgRatio s _ _) (funext fun m => ?_)
  exact scores_apply x0 x1 p m

end Cert.Routing.Kernel

end
-- ==== Proof.KernelHost.lean ====
/-
  What the region finds in the four arrays the host operations before it wrote.

  The argument arrays and the four staged arrays are first NAMED at their literal types (a stack of four planes of
  4096 rows of ten; 16384 query rows of ten; two vectors of ten; the keys, the values with their extra column, the
  scale row and the shift row), so that their entries are plain extended reals.

  * The KEYS (window 1): plane 1 of the stack, cut out, recast from `[1, 4096, 10]` to `[4096, 10]` and changed
    of float format (the identity here): entry `(k, d)` is the stack's entry `(1, k, d)`.
  * The VALUES with the extra column (window 2): the stack summed over its four planes, from a zero initial value,
    with a column of the constant one appended on the right: entry `(k, d)` for `d < 10` is the sum over `j` of
    the stack's entries `(j, k, d)`, and entry `(k, 10)` is one.
  * The SCALE and SHIFT rows (windows 3 and 4): the two vectors of ten recast as `[1, 10]`: entry `(0, d)` is the
    vector's entry `d`.
-/
import proofs.«415658_j76501957476790_3_alg».proof.Proof.Gen.KernelIdeal.Frame
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.Routing.Kernel

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays, named at their literal types -/

/-- The stack of four planes, as launched. -/
abbrev stack (c : Dev nD) : FVec Ideal S4x4096x10 .f32 := m ((c : Thread nD τ).loc main_arg0)
/-- The query rows, as launched. -/
abbrev queries (c : Dev nD) : FVec Ideal S16384x10 .f32 := m ((c : Thread nD τ).loc main_arg1)
/-- The scale vector, as launched. -/
abbrev scaleVec (c : Dev nD) : FVec Ideal S10 .f32 := m ((c : Thread nD τ).loc main_arg2)
/-- The shift vector, as launched. -/
abbrev shiftVec (c : Dev nD) : FVec Ideal S10 .f32 := m ((c : Thread nD τ).loc main_arg3)
/-- The keys, as the region finds them. -/
abbrev keysArr (c : Dev nD) : FVec Ideal S4096x10 .bf16 := V m c main_v5
/-- The values with their extra column, as the region finds them. -/
abbrev valuesArr (c : Dev nD) : FVec Ideal S4096x11 .bf16 := V m c main_v6
/-- The scale row, as the region finds it. -/
abbrev scaleRow (c : Dev nD) : FVec Ideal S1x10 .f32 := V m c main_v7
/-- The shift row, as the region finds it. -/
abbrev shiftRow (c : Dev nD) : FVec Ideal S1x10 .f32 := V m c main_v8

/-! ## The staged arrays as the host operations' terms of the arguments -/

theorem keysArr_eq (c : Dev nD) :
    keysArr m c = truncf .bf16 (shapeCast S4096x10 (extractStridedSlice S1x4096x10 ![1, 0, 0] (stack m c) slices_S4x4096x10_S1x4096x10_1_0_0) shapeCasts_S1x4096x10_S4096x10) bitsLt_bf16_f32 := by
  show V m c main_v5 = _
  unfold V; after_results <;> rfl

theorem valuesArr_eq (c : Dev nD) :
    valuesArr m c = truncf .bf16 (concatenate S4096x11 1
        [⟨S4096x10, Host.reduceAdd (stack m c) (constant (F := Ideal) S_ .f32 0x00000000#32) reducesTo_S4x4096x10_S4096x10_d0 h_S_⟩,
         ⟨S4096x1, broadcastInDim S4096x1 ![] bcast_S_S4096x1 (constant (F := Ideal) S_ .f32 0x3F800000#32)⟩]
        concatenates_S4096x10_S4096x1_S4096x11_d1) bitsLt_bf16_f32 := by
  show V m c main_v6 = _
  unfold V; after_results <;> rfl

theorem scaleRow_eq (c : Dev nD) : scaleRow m c = shapeCast S1x10 (scaleVec m c) shapeCasts_S10_S1x10 := by
  show V m c main_v7 = _
  unfold V; after_results <;> rfl

theorem shiftRow_eq (c : Dev nD) : shiftRow m c = shapeCast S1x10 (shiftVec m c) shapeCasts_S10_S1x10 := by
  show V m c main_v8 = _
  unfold V; after_results <;> rfl

/-! ## Read at an entry -/

/-- A key entry is the stack's entry in plane 1. -/
theorem keysArr_apply (c : Dev nD) (k : Fin 4096) (d : Fin 10) :
    keysArr m c (ix2 k d) = stack m c (ix3 (1 : Fin 4) k d) := by
  rw [keysArr_eq, truncf_apply]
  refine (shapeCast_apply _ shapeCasts_S1x4096x10_S4096x10 (ix2 k d) (ix3 (0 : Fin 1) k d) (by
    rw [Shape.rowMajor_val_three, Shape.rowMajor_val_two]
    show (0 * 4096 + k.val) * 10 + d.val = k.val * 10 + d.val
    omega)).trans ?_
  exact extractStridedSlice_apply ![1, 0, 0] (stack m c) slices_S4x4096x10_S1x4096x10_1_0_0 (ix3 (0 : Fin 1) k d) (ix3 (1 : Fin 4) k d) (fun a => match a with
    | ⟨0, _⟩ => by show (1 : Nat) = 1 + 0; omega
    | ⟨1, _⟩ => by show k.val = 0 + k.val; omega
    | ⟨2, _⟩ => by show d.val = 0 + d.val; omega)

/-- The sum of the stack over its planes, from a zero initial value, at an entry. -/
theorem planeSum_apply (x : FVec Ideal S4x4096x10 .f32) (k : Fin 4096) (d : Fin 10) :
    Host.reduceAdd x (constant (F := Ideal) S_ .f32 0x00000000#32) reducesTo_S4x4096x10_S4096x10_d0 h_S_ (ix2 k d)
      = ∑ j : Fin 4, x (ix3 j k d) := by
  rw [hostReduceAdd_apply, Ideal.hostReduceAdd_single reducesTo_S4x4096x10_S4096x10_d0 (by decide), constant_apply,
    Ideal.ofBits_zero_f32, zero_add]
  refine Finset.sum_congr rfl fun j _ => congrArg x (funext fun a => Fin.ext (by
    match a with
    | ⟨0, _⟩ => rfl
    | ⟨1, _⟩ => rfl
    | ⟨2, _⟩ => rfl))

/-- A value entry in the first ten columns is the sum of the stack's four planes there. -/
theorem valuesArr_apply_left (c : Dev nD) (k : Fin 4096) (d : Fin 10) :
    valuesArr m c (ix2 k d.castSucc) = ∑ j : Fin 4, stack m c (ix3 j k d) := by
  rw [valuesArr_eq, truncf_apply]
  refine (concatenate_pair_apply_left (t := S4096x11) (s₁ := S4096x10) (s₂ := S4096x1) (1 : Fin S4096x11.rank) _ _
    concatenates_S4096x10_S4096x1_S4096x11_d1 (ix2 k d.castSucc) rfl (ix2 k d) (fun b => match b with
    | ⟨0, _⟩ => rfl
    | ⟨1, _⟩ => rfl)).trans ?_
  exact planeSum_apply (stack m c) k d

/-- A value entry in the eleventh column is one. -/
theorem valuesArr_apply_right (c : Dev nD) (k : Fin 4096) :
    valuesArr m c (ix2 k (Fin.last 10)) = ((1 : ℝ) : EReal) := by
  rw [valuesArr_eq, truncf_apply]
  refine (concatenate_pair_apply_right (t := S4096x11) (s₁ := S4096x10) (s₂ := S4096x1) (1 : Fin S4096x11.rank) _ _
    concatenates_S4096x10_S4096x1_S4096x11_d1 (ix2 k (Fin.last 10)) rfl rfl (ix2 k (0 : Fin 1))
    (fun (b : Fin S4096x1.rank) => match b with
      | ⟨0, _⟩ => fun _ => rfl
      | ⟨1, _⟩ => fun hne => absurd rfl hne)
    (by show 0 + 10 = 10; omega)).trans ?_
  rw [broadcastInDim_scalar_apply, constant_apply, Ideal.ofBits_one_f32, EReal.coe_one]

/-- The scale row's entry is the vector's. -/
theorem scaleRow_apply (c : Dev nD) (d : Fin 10) : scaleRow m c (ix2 (0 : Fin 1) d) = scaleVec m c (ix1 d) := by
  rw [scaleRow_eq]
  exact shapeCast_apply _ shapeCasts_S10_S1x10 (ix2 (0 : Fin 1) d) (ix1 d) (by
    rw [Shape.rowMajor_val_one, Shape.rowMajor_val_two]
    show d.val = 0 * 10 + d.val
    omega)

/-- The shift row's entry is the vector's. -/
theorem shiftRow_apply (c : Dev nD) (d : Fin 10) : shiftRow m c (ix2 (0 : Fin 1) d) = shiftVec m c (ix1 d) := by
  rw [shiftRow_eq]
  exact shapeCast_apply _ shapeCasts_S10_S1x10 (ix2 (0 : Fin 1) d) (ix1 d) (by
    rw [Shape.rowMajor_val_one, Shape.rowMajor_val_two]
    show d.val = 0 * 10 + d.val
    omega)

end Cert.Routing.Kernel

end
-- ==== Proof.Spec.lean ====
/-
  The result as ONE function of the four argument arrays, entry by entry, over literal shapes.

  `S` is the stack of four planes of 4096 rows of ten, `W` the 16384 query rows of ten, `γ` and `β` the scale
  and shift vectors. Row `n` of the result is the output row (`Routing.rowK`, the one-quotient form) of query row
  `n` against the keys (plane 1 of the stack) and the values (the stack summed over its planes), the denominator
  summed against a column of ones. Both programs are shown to end at this array.
-/
import proofs.«415658_j76501957476790_3_alg».proof.Proof.RowMath
import Idealize.ShloMosaic.Lib.ValueIdx

noncomputable section

namespace Cert.Routing

open Idealize.ShloMosaic Idealize.ShloMosaic.ValueIdx

/-- Entry `d` of the output row of query row `n`. -/
def outRow (S : FVec Ideal ⟨3, ![4, 4096, 10]⟩ .f32) (W : FVec Ideal ⟨2, ![16384, 10]⟩ .f32) (γ β : FVec Ideal ⟨1, ![10]⟩ .f32)
    (n : Fin 16384) (d : Fin 10) : EReal :=
  rowK (fun d' : Fin 10 => W (ix2 n d')) (fun (k : Fin 4096) (d' : Fin 10) => S (ix3 (1 : Fin 4) k d'))
    (fun (k : Fin 4096) (d' : Fin 10) => ∑ j : Fin 4, S (ix3 j k d')) (fun _ : Fin 4096 => ((1 : ℝ) : EReal))
    (fun d' => γ (ix1 d')) (fun d' => β (ix1 d')) d

/-- The whole result array. -/
def G (S : FVec Ideal ⟨3, ![4, 4096, 10]⟩ .f32) (W : FVec Ideal ⟨2, ![16384, 10]⟩ .f32) (γ β : FVec Ideal ⟨1, ![10]⟩ .f32) :
    FVec Ideal ⟨2, ![16384, 10]⟩ .f32 :=
  fun i => outRow S W γ β (i 0) (i 1)

theorem G_apply (S : FVec Ideal ⟨3, ![4, 4096, 10]⟩ .f32) (W : FVec Ideal ⟨2, ![16384, 10]⟩ .f32) (γ β : FVec Ideal ⟨1, ![10]⟩ .f32)
    (n : Fin 16384) (d : Fin 10) : G S W γ β (ix2 n d) = outRow S W γ β n d := rfl

/-- The output row depends on its data entry by entry. -/
theorem rowK_congr {ι κ : Type} [Fintype ι] [Fintype κ] {q q' : κ → EReal} {key key' A A' : ι → κ → EReal} {c c' : ι → EReal}
    {γ γ' β β' : κ → EReal} (hq : ∀ d, q d = q' d) (hkey : ∀ k d, key k d = key' k d) (hA : ∀ k d, A k d = A' k d)
    (hc : ∀ k, c k = c' k) (hγ : ∀ d, γ d = γ' d) (hβ : ∀ d, β d = β' d) (d : κ) :
    rowK q key A c γ β d = rowK q' key' A' c' γ' β' d := by
  obtain rfl : q = q' := funext hq
  obtain rfl : key = key' := funext fun k => funext (hkey k)
  obtain rfl : A = A' := funext fun k => funext (hA k)
  obtain rfl : c = c' := funext hc
  obtain rfl : γ = γ' := funext hγ
  obtain rfl : β = β' := funext hβ
  rfl

end Cert.Routing

end
-- ==== Proof.KernelArray.lean ====
/-
  From what each grid point writes to the whole result array.

  The grid has 32 points. Point `t` is handed rows `512 t … 512 t + 511` of the query rows (window 0) and of the
  result (window 5); the keys, the values with their extra column, the scale row and the shift row (windows 1 to 4)
  are handed whole at every point. These are the printed index maps, decided once over the grid (`idx_facts`).
  So what point `t` computes at entry `(p, d)` of its block (`Kernel.pay_apply`), with each staged array read
  back to the arguments (`Kernel.keysArr_apply` and its fellows), is entry `(512 t + p, d)` of `Routing.G` of the
  argument arrays: point `t` writes back block `t` of `G` (`flushed_eq`). Row `r` lies in the block of point
  `r / 512`, so the blocks cover the array (`cover`) and the array ends holding `G` (`final`, `run`).
-/
import proofs.«415658_j76501957476790_3_alg».proof.Proof.Gen.KernelIdeal.Value
import proofs.«415658_j76501957476790_3_alg».proof.Proof.KernelPayload
import proofs.«415658_j76501957476790_3_alg».proof.Proof.KernelHost
import proofs.«415658_j76501957476790_3_alg».proof.Proof.Spec
import Idealize.ShloMosaic.Lib.Pipeline.Value

noncomputable section

namespace Cert.Routing.Kernel

open Cert.KernelIdeal Cert.KernelIdeal.Gen Idealize.ShloMosaic Idealize.ShloMosaic.TcCoe Idealize.ShloMosaic.ValueIdx
open Idealize.SL.Sem Cert.Routing
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: windows 0 and 5 move down one block of rows per point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks a point is handed -/

/-- The block of query rows at point `t`, at its literal type. -/
abbrev qblk (c : Dev nD) (t : Fin cfg0.N) : FVec Ideal S512x10 .f32 := iblk m c 0 t

/-- Its entry `(p, d)` is the query rows' entry `(512 t + p, d)`. -/
theorem qblk_apply (c : Dev nD) (t : Fin cfg0.N) (p : Fin 512) (d : Fin 10) (n : Fin 16384) (hn : n.val = t.val * 512 + p.val) :
    qblk m c t (ix2 p d) = queries m c (ix2 n d) := by
  obtain ⟨e0, e1, -⟩ := idx_facts t
  show iblk m c 0 t (ix2 p d) = _
  unfold iblk
  rw [View.read_apply]
  show V m c main_arg1 _ = _
  rw [V_main_arg1]
  refine congrArg (queries m c) (funext fun a => Fin.ext ?_)
  match a with
  | ⟨0, _⟩ => show win0_0.index t (0 : Fin 2) * 512 + 1 * p.val = n.val; omega
  | ⟨1, _⟩ => show win0_0.index t (1 : Fin 2) * 10 + 1 * d.val = d.val; omega

/-- The keys' block is the keys, at every point. -/
theorem kblk_eq (c : Dev nD) (t : Fin cfg0.N) : (iblk m c 1 t : FVec Ideal S4096x10 .bf16) = keysArr m c := by
  obtain ⟨-, -, e0, e1, -⟩ := idx_facts t
  funext y
  unfold iblk
  rw [View.read_apply]
  show keysArr m c _ = keysArr m c y
  refine congrArg (keysArr m c) (funext fun a => Fin.ext ?_)
  match a with
  | ⟨0, _⟩ => show win0_1.index t (0 : Fin 2) * 4096 + 1 * (y 0).val = (y 0).val; omega
  | ⟨1, _⟩ => show win0_1.index t (1 : Fin 2) * 10 + 1 * (y 1).val = (y 1).val; omega

/-- The values' block is the values, at every point. -/
theorem vblk_eq (c : Dev nD) (t : Fin cfg0.N) : (iblk m c 2 t : FVec Ideal S4096x11 .bf16) = valuesArr m c := by
  obtain ⟨-, -, -, -, e0, e1, -⟩ := idx_facts t
  funext y
  unfold iblk
  rw [View.read_apply]
  show valuesArr m c _ = valuesArr m c y
  refine congrArg (valuesArr m c) (funext fun a => Fin.ext ?_)
  match a with
  | ⟨0, _⟩ => show win0_2.index t (0 : Fin 2) * 4096 + 1 * (y 0).val = (y 0).val; omega
  | ⟨1, _⟩ => show win0_2.index t (1 : Fin 2) * 11 + 1 * (y 1).val = (y 1).val; omega

/-- The scale row's block is the scale row, at every point. -/
theorem gblk_eq (c : Dev nD) (t : Fin cfg0.N) : (iblk m c 3 t : FVec Ideal S1x10 .f32) = scaleRow m c := by
  obtain ⟨-, -, -, -, -, -, e0, e1, -⟩ := idx_facts t
  funext y
  unfold iblk
  rw [View.read_apply]
  show scaleRow m c _ = scaleRow m c y
  refine congrArg (scaleRow m c) (funext fun a => Fin.ext ?_)
  match a with
  | ⟨0, _⟩ => show win0_3.index t (0 : Fin 2) * 1 + 1 * (y 0).val = (y 0).val; omega
  | ⟨1, _⟩ => show win0_3.index t (1 : Fin 2) * 10 + 1 * (y 1).val = (y 1).val; omega

/-- The shift row's block is the shift row, at every point. -/
theorem bblk_eq (c : Dev nD) (t : Fin cfg0.N) : (iblk m c 4 t : FVec Ideal S1x10 .f32) = shiftRow m c := by
  obtain ⟨-, -, -, -, -, -, -, -, e0, e1, -⟩ := idx_facts t
  funext y
  unfold iblk
  rw [View.read_apply]
  show shiftRow m c _ = shiftRow m c y
  refine congrArg (shiftRow m c) (funext fun a => Fin.ext ?_)
  match a with
  | ⟨0, _⟩ => show win0_4.index t (0 : Fin 2) * 1 + 1 * (y 0).val = (y 0).val; omega
  | ⟨1, _⟩ => show win0_4.index t (1 : Fin 2) * 10 + 1 * (y 1).val = (y 1).val; omega

/-! ## What a point writes back -/

/-- The result array of the arguments as launched. -/
abbrev result (c : Dev nD) : FVec Ideal S16384x10 .f32 := G (stack m c) (queries m c) (scaleVec m c) (shiftVec m c)

/-- Point `t` writes back block `t` of the result array. -/
theorem flushed_eq (c : Dev nD) (t : Fin cfg0.N) :
    (dats m 0 c).flushed 5 t = ((cfg0.win 5).blk t).view.read (Elt Ideal) (result m c) := by
  have hN : cfg0.N = 32 := N_0
  have ht : t.val < cfg0.N := t.isLt
  obtain ⟨-, -, -, -, -, -, -, -, -, -, e0, e1⟩ := idx_facts t
  rw [Value.flushed5]
  unfold out0_5
  rw [View.canon_unit_zero zero_offsets]
  simp only [View.ld_unit_zero (S := S512x10) zero_offsets, View.ld_unit_zero (S := S4096x10) zero_offsets,
    View.ld_unit_zero (S := S4096x11) zero_offsets, View.ld_unit_zero (S := S1x10) zero_offsets]
  rw [kblk_eq, vblk_eq, gblk_eq, bblk_eq]
  funext j
  obtain ⟨p, d, rfl⟩ : ∃ (p : Fin 512) (d : Fin 10), j = ix2 p d := ⟨j 0, j 1, eq_ix2 j⟩
  have hp : p.val < 512 := p.isLt
  have hemb : ((cfg0.win 5).blk t).view.emb (ix2 p d) = ix2 (⟨t.val * 512 + p.val, by omega⟩ : Fin 16384) d :=
    funext fun a => Fin.ext (by
      match a with
      | ⟨0, _⟩ => show win0_5.index t (0 : Fin 2) * 512 + 1 * p.val = t.val * 512 + p.val; omega
      | ⟨1, _⟩ => show win0_5.index t (1 : Fin 2) * 10 + 1 * d.val = d.val; omega)
  show k0_pay1 (F := Ideal) (qblk m c t) (keysArr m c) (valuesArr m c) (scaleRow m c) (shiftRow m c) (ix2 p d)
      = result m c (((cfg0.win 5).blk t).view.emb (ix2 p d))
  rw [hemb]
  refine (pay_apply (qblk m c t) (keysArr m c) (valuesArr m c) (scaleRow m c) (shiftRow m c) p d).trans ?_
  exact rowK_congr (fun d' => qblk_apply m c t p d' _ rfl) (fun k d' => keysArr_apply m c k d')
    (fun k d' => valuesArr_apply_left m c k d') (fun k => valuesArr_apply_right m c k)
    (fun d' => scaleRow_apply m c d') (fun d' => shiftRow_apply m c d') d

/-! ## The blocks cover the array -/

/-- An entry lies in point `t`'s block iff each coordinate is in the block's range on its axis. -/
theorem mem_blk (t : Fin cfg0.N) (i : S16384x10.Idx) :
    i ∈ ((cfg0.win 5).blk t).view.set
      ↔ ∀ a : Fin 2, win0_5.index t a * S512x10.size a ≤ (i a).val ∧ (i a).val < win0_5.index t a * S512x10.size a + S512x10.size a := by
  show i ∈ ((View.whole main_v9).slice (win0_5.rect t)).set ↔ _
  rw [View.set_slice_whole, Rect.mem_set_unit]
  exact Iff.rfl

/-- Row `r` is in the block of point `r / 512`. -/
theorem cover (i : S16384x10.Idx) : ∃ t : Fin cfg0.N, (cfg0.win 5).flush t = true ∧ i ∈ ((cfg0.win 5).blk t).view.set := by
  have hN : cfg0.N = 32 := N_0
  have h0 : (i 0).val < 16384 := (i 0).isLt
  have h1 : (i 1).val < 10 := (i 1).isLt
  obtain ⟨t, ht⟩ : ∃ t : Fin cfg0.N, t.val = (i 0).val / 512 := ⟨⟨(i 0).val / 512, by omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 10 ≤ (i 1).val ∧ (i 1).val < win0_5.index t (1 : Fin 2) * 10 + 10
    omega

/-! ## The array after the run -/

/-- The result window's array ends holding the result array of the arguments. -/
theorem final (c : Dev nD) : (dats m 0 c).arrAt 5 cfg0.N = result m c :=
  (dats m 0 c).arrAt_eq_of_cover 5 (result m c) (fun t _ => flushed_eq m c t) cover

/-- Every weakly fair execution of the idealized kernel ends with its result at `Routing.G` of the arguments as
    launched, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Routing.Kernel

end
-- ==== Proof.RefRead.lean ====
/-
  The reference's result, entry by entry.

  The reference computes, for query row `n`: its scores against plane 1 of the stack (the keys); their greatest
  value, taken from `-∞` (the row's SHIFT); the exponentials of the shifted scores, each divided by their sum
  (the softmax weights); the weights' sum against the stack summed over its planes (the values); that average added
  to the query row; and the row normalised, scaled and shifted. Every one of these operations is read at an entry
  by the generated lemmas over the reference's run, one operation at a time; composed here, with each operand
  index named by its coordinates, entry `(n, d)` of the result is `Routing.rowR` of query row `n`
  (`result_at`). The shift stays the reference's own term here (`shift`): all that is needed of it later is
  that it is a real number, which is another module's business. Sums the host starts from a zero initial value are
  plain sums, zero being neutral.
-/
import proofs.«415658_j76501957476790_3_alg».proof.Proof.Gen.ReferenceIdeal.Read
import proofs.«415658_j76501957476790_3_alg».proof.Proof.RowMath
import Idealize.ShloMosaic.Lib.ValueIdx
import Idealize.ShloMosaic.PureOps.Ideal.Laws

noncomputable section

namespace Cert.Routing.Reference

open Cert.ReferenceIdeal Cert.ReferenceIdeal.Gen Cert.ReferenceIdeal.Read Idealize.ShloMosaic Idealize.ShloMosaic.ValueIdx Cert.Routing

/-- Two index functions agree: coordinate by coordinate, by computation. -/
local macro "coords1" : tactic => `(tactic| (funext a; apply Fin.ext; match a with | ⟨0, _⟩ => rfl))
local macro "coords2" : tactic => `(tactic| (funext a; apply Fin.ext; match a with | ⟨0, _⟩ => rfl | ⟨1, _⟩ => rfl))
local macro "coords3" : tactic => `(tactic| (funext a; apply Fin.ext; match a with | ⟨0, _⟩ => rfl | ⟨1, _⟩ => rfl | ⟨2, _⟩ => rfl))

variable (x0 : FVec Ideal S4x4096x10 .f32) (x1 : FVec Ideal S16384x10 .f32) (x2 x3 : FVec Ideal S10 .f32)

/-! ## The row's data -/

/-- Query row `n`. -/
abbrev qrow (n : Fin 16384) : Fin 10 → EReal := fun d => x1 (ix2 n d)
/-- The key rows: plane 1 of the stack. -/
abbrev keys : Fin 4096 → Fin 10 → EReal := fun k d => x0 (ix3 (1 : Fin 4) k d)
/-- The value rows: the stack summed over its four planes. -/
abbrev vals : Fin 4096 → Fin 10 → EReal := fun k d => ∑ j : Fin 4, x0 (ix3 j k d)
/-- The row's shift: the greatest of its scores and `-∞`, as the reference computes it. -/
def shift (n : Fin 16384) : EReal := val_main_v46 (F := Ideal) x0 x1 (ix1 n)

/-! ## The attention average -/

theorem key_at (k : Fin 4096) (d : Fin 10) : val_main_v42 (F := Ideal) x0 (ix2 k d) = x0 (ix3 (1 : Fin 4) k d) := by
  rw [val_main_v42_apply, val_main_v41_apply]
  refine congrArg x0 (funext fun a => Fin.ext ?_)
  have hk : k.val < 4096 := k.isLt
  have hd : d.val < 10 := d.isLt
  match a with
  | ⟨0, _⟩ => rfl
  | ⟨1, _⟩ => show (k.val * 10 + d.val) / 10 % 4096 = k.val; omega
  | ⟨2, _⟩ => show (k.val * 10 + d.val) % 10 = d.val; omega

theorem score_at (n : Fin 16384) (k : Fin 4096) :
    val_main_v43 (F := Ideal) x0 x1 (ix2 n k) = score (qrow x1 n) (keys x0) k := by
  rw [val_main_v43_apply]
  unfold score
  refine Finset.sum_congr rfl fun j _ => ?_
  have el : lidx_main_v43 (ix2 n k) j = ix2 n j := by coords2
  have er : ridx_main_v43 (ix2 n k) j = ix2 k j := by coords2
  rw [el, er, key_at]

theorem shift_at (n : Fin 16384) (k : Fin 4096) : val_main_v48 (F := Ideal) x0 x1 (ix2 n k) = shift x0 x1 n := by
  have e : idx_main_v47 (idx_main_v48 (ix2 n k)) = ix1 n := by coords1
  rw [val_main_v48_apply, val_main_v47_apply, e]
  rfl

theorem expo_at (n : Fin 16384) (k : Fin 4096) :
    val_main_v50 (F := Ideal) x0 x1 (ix2 n k) = Ideal.exp (score (qrow x1 n) (keys x0) k - shift x0 x1 n) := by
  rw [val_main_v50_apply, val_main_v49_apply, score_at, shift_at]
  rfl

theorem denom_at (n : Fin 16384) :
    val_main_v51 (F := Ideal) x0 x1 (ix1 n) = ∑ k : Fin 4096, Ideal.exp (score (qrow x1 n) (keys x0) k - shift x0 x1 n) := by
  rw [val_main_v51_apply, val_main_cst_10_apply, Ideal.ofBits_def, Ideal.ofBits_zero_f32, zero_add]
  refine Finset.sum_congr rfl fun k _ => ?_
  have e : idx_main_v51 (ix1 n) k = ix2 n k := by coords2
  rw [e, expo_at]

theorem weight_at (n : Fin 16384) (k : Fin 4096) :
    val_main_v54 (F := Ideal) x0 x1 (ix2 n k)
      = Ideal.div (Ideal.exp (score (qrow x1 n) (keys x0) k - shift x0 x1 n))
          (∑ k' : Fin 4096, Ideal.exp (score (qrow x1 n) (keys x0) k' - shift x0 x1 n)) := by
  have e : idx_main_v52 (idx_main_v53 (ix2 n k)) = ix1 n := by coords1
  rw [val_main_v54_apply, expo_at, val_main_v53_apply, val_main_v52_apply, e, denom_at]
  rfl

theorem vals_at (k : Fin 4096) (d : Fin 10) : val_main_v0 (F := Ideal) x0 (ix2 k d) = vals x0 k d := by
  rw [val_main_v0_apply, val_main_cst_apply, Ideal.ofBits_def, Ideal.ofBits_zero_f32, zero_add]
  exact Finset.sum_congr rfl fun j _ => congrArg x0 (by coords3)

theorem avg_at (n : Fin 16384) (d : Fin 10) :
    val_main_v55 (F := Ideal) x0 x1 (ix2 n d)
      = avgSoftmax (score (qrow x1 n) (keys x0)) (shift x0 x1 n) (fun k => vals x0 k d) := by
  rw [val_main_v55_apply]
  unfold avgSoftmax
  refine Finset.sum_congr rfl fun k _ => ?_
  have el : lidx_main_v55 (ix2 n d) k = ix2 n k := by coords2
  have er : ridx_main_v55 (ix2 n d) k = ix2 k d := by coords2
  rw [el, er, weight_at, vals_at]

/-! ## The row before normalisation, and its normalisation -/

/-- Row `n` of the query rows plus the attention averages, as the reference holds it. -/
abbrev xrow (n : Fin 16384) : Fin 10 → EReal := fun d => val_main_v56 (F := Ideal) x0 x1 (ix2 n d)

theorem xrow_at (n : Fin 16384) (d : Fin 10) :
    xrow x0 x1 n d = x1 (ix2 n d) + avgSoftmax (score (qrow x1 n) (keys x0)) (shift x0 x1 n) (fun k => vals x0 k d) := by
  show val_main_v56 (F := Ideal) x0 x1 (ix2 n d) = _
  rw [val_main_v56_apply, avg_at]
  rfl

theorem mean_at (n : Fin 16384) : val_main_v60 (F := Ideal) x0 x1 (ix2 n (0 : Fin 1)) = rowMean (xrow x0 x1 n) := by
  rw [val_main_v60_apply, val_main_v58_apply, val_main_v57_apply, val_main_v59_apply, val_main_cst_12_apply, val_main_cst_11_apply]
  simp only [Ideal.ofBits_def, Ideal.ofBits_zero_f32, zero_add]
  exact congrArg (fun s => Ideal.div s ten)
    (Finset.sum_congr rfl fun k _ => congrArg (val_main_v56 (F := Ideal) x0 x1) (by coords2))

theorem centred_at (n : Fin 16384) (d : Fin 10) :
    val_main_v62 (F := Ideal) x0 x1 (ix2 n d) = xrow x0 x1 n d - rowMean (xrow x0 x1 n) := by
  have e : idx_main_v61 (ix2 n d) = ix2 n (0 : Fin 1) := by coords2
  rw [val_main_v62_apply, val_main_v61_apply, e, mean_at]
  rfl

theorem centred'_at (n : Fin 16384) (d : Fin 10) :
    val_main_v69 (F := Ideal) x0 x1 (ix2 n d) = xrow x0 x1 n d - rowMean (xrow x0 x1 n) := by
  have e : idx_main_v68 (ix2 n d) = ix2 n (0 : Fin 1) := by coords2
  rw [val_main_v69_apply, val_main_v68_apply, e, mean_at]
  rfl

theorem var_at (n : Fin 16384) : val_main_v67 (F := Ideal) x0 x1 (ix2 n (0 : Fin 1)) = rowVar (xrow x0 x1 n) := by
  rw [rowVar_eq, val_main_v67_apply, val_main_v65_apply, val_main_v64_apply, val_main_v66_apply, val_main_cst_14_apply, val_main_cst_13_apply]
  simp only [Ideal.ofBits_def, Ideal.ofBits_zero_f32, zero_add]
  refine congrArg (fun s => Ideal.div s ten) (Finset.sum_congr rfl fun k _ => ?_)
  have e : idx_main_v64 (idx_main_v65 (ix2 n (0 : Fin 1))) k = ix2 n k := by coords2
  rw [e, val_main_v63_apply, centred_at]
  rfl

theorem rstd_at (n : Fin 16384) :
    val_main_v72 (F := Ideal) x0 x1 (ix2 n (0 : Fin 1)) = Ideal.rsqrt (rowVar (xrow x0 x1 n) + eps) := by
  rw [val_main_v72_apply, val_main_v71_apply, var_at, val_main_v70_apply, val_main_cst_15_apply]
  rfl

theorem out_at (n : Fin 16384) (d : Fin 10) :
    val_main_v80 (F := Ideal) x0 x1 x2 x3 (ix2 n d)
      = layerNorm (xrow x0 x1 n) (fun d => x2 (ix1 d)) (fun d => x3 (ix1 d)) d := by
  have e73 : idx_main_v73 (ix2 n d) = ix2 n (0 : Fin 1) := by coords2
  have e75 : idx_main_v75 (idx_main_v76 (ix2 n d)) = ix1 d := by coords1
  have e78 : idx_main_v78 (idx_main_v79 (ix2 n d)) = ix1 d := by coords1
  rw [val_main_v80_apply, val_main_v77_apply, val_main_v74_apply, centred'_at, val_main_v73_apply, e73, rstd_at,
    val_main_v76_apply, val_main_v75_apply, e75, val_main_v79_apply, val_main_v78_apply, e78]
  rfl

/-- Entry `(n, d)` of the reference's result: the output row of query row `n`, through the shifted softmax. -/
theorem result_at (n : Fin 16384) (d : Fin 10) :
    val_main_v80 (F := Ideal) x0 x1 x2 x3 (ix2 n d)
      = rowR (qrow x1 n) (keys x0) (vals x0) (shift x0 x1 n) (fun d => x2 (ix1 d)) (fun d => x3 (ix1 d)) d := by
  rw [out_at]
  unfold rowR
  exact congrArg (fun x => layerNorm x _ _ d) (funext fun d' => xrow_at x0 x1 n d')

end Cert.Routing.Reference

end
-- ==== Proof.RefMax.lean ====
/-
  The reference's row shift is a real number.

  The reference shifts row `n`'s scores by the greater of `-∞` and the greatest score of the row, the latter taken
  by a reduction from `-∞`: a fold of `max` over the row's 4096 scores. When the stack and the query rows hold
  real numbers every score is a real number, the fold is above `-∞` because there is a score and below `+∞` because
  every score is, so it is a real number, and the greater of it and `-∞` is itself.
-/
import proofs.«415658_j76501957476790_3_alg».proof.Proof.RefRead
import Idealize.ShloMosaic.PureOps.Reduce
import Idealize.ShloMosaic.PureOps.Ideal.Laws
import Mathlib.Data.Finset.Fold

noncomputable section

namespace Cert.Routing.Reference

open Cert.ReferenceIdeal Cert.ReferenceIdeal.Gen Cert.ReferenceIdeal.Read Idealize.ShloMosaic Idealize.ShloMosaic.ValueIdx Cert.Routing

/-- The greatest of a nonempty finite family of real numbers, taken from `-∞`, is a real number; so is the greater
    of it and `-∞`. -/
theorem fold_max_real {α : Type} [Fintype α] [Nonempty α] (g : α → EReal) (hg : ∀ k, ∃ r : ℝ, g k = r) :
    ∃ r : ℝ, max (⊥ : EReal) (Finset.univ.fold max ⊥ g) = r := by
  have hlt : Finset.univ.fold max (⊥ : EReal) g < ⊤ := by
    rw [Finset.fold_max_lt]
    exact ⟨bot_lt_top, fun k _ => by obtain ⟨r, hr⟩ := hg k; rw [hr]; exact EReal.coe_lt_top r⟩
  have hgt : (⊥ : EReal) < Finset.univ.fold max ⊥ g := by
    obtain ⟨k0⟩ := ‹Nonempty α›
    rw [Finset.lt_fold_max]
    exact Or.inr ⟨k0, Finset.mem_univ _, by obtain ⟨r, hr⟩ := hg k0; rw [hr]; exact EReal.bot_lt_coe r⟩
  refine ⟨(Finset.univ.fold max ⊥ g).toReal, ?_⟩
  rw [max_eq_right bot_le, EReal.coe_toReal hlt.ne hgt.ne']

/-- The f32 word of `-∞` denotes `-∞`. -/
theorem ofBits_neg_inf : Ideal.ofBits .f32 0xFF800000#32 = (⊥ : EReal) := by simp [Ideal.ofBits, Ideal.ieee]

/-- The reduction runs along the second axis. -/
theorem scores_reduce : S16384x4096.Reduces [1] S16384 := by decide

variable (x0 : FVec Ideal S4x4096x10 .f32) (x1 : FVec Ideal S16384x10 .f32)

/-- Real stack, real query rows: real scores. -/
theorem score_real (h0 : ∀ i, ∃ r : ℝ, x0 i = r) (h1 : ∀ i, ∃ r : ℝ, x1 i = r) (n : Fin 16384) (k : Fin 4096) :
    ∃ r : ℝ, score (qrow x1 n) (keys x0) k = r := by
  choose r0 hr0 using h0
  choose r1 hr1 using h1
  refine ⟨∑ d : Fin 10, r1 (ix2 n d) * r0 (ix3 (1 : Fin 4) k d), ?_⟩
  have e1 : qrow x1 n = fun d : Fin 10 => ((r1 (ix2 n d) : ℝ) : EReal) := funext fun d => hr1 _
  have e0 : keys x0 = fun (k : Fin 4096) (d : Fin 10) => ((r0 (ix3 (1 : Fin 4) k d) : ℝ) : EReal) :=
    funext fun k => funext fun d => hr0 _
  rw [e1, e0]
  exact score_coe (fun d => r1 (ix2 n d)) (fun k d => r0 (ix3 (1 : Fin 4) k d)) k

/-- The row's shift is a real number. -/
theorem shift_real (h0 : ∀ i, ∃ r : ℝ, x0 i = r) (h1 : ∀ i, ∃ r : ℝ, x1 i = r) (n : Fin 16384) :
    ∃ r : ℝ, shift x0 x1 n = r := by
  have e45 : val_main_v45 (F := Ideal) (ix1 n) = (⊥ : EReal) := by
    rw [val_main_v45_apply, val_main_cst_9_apply, Ideal.ofBits_def]
    exact ofBits_neg_inf
  have hinit : val_main_cst_8 (F := Ideal) (Shape.Idx.first h_S_) = (⊥ : EReal) := by
    rw [val_main_cst_8_apply, Ideal.ofBits_def]
    exact ofBits_neg_inf
  have hfun : (val_main_v43 (F := Ideal) x0 x1 ∘ scores_reduce.lift (ix1 n)) = fun k : Fin 4096 => score (qrow x1 n) (keys x0) k :=
    funext fun (k : Fin 4096) => by
      have e : scores_reduce.lift (ix1 n) k = ix2 n k := by
        funext a; apply Fin.ext
        match a with
        | ⟨0, _⟩ => rfl
        | ⟨1, _⟩ => rfl
      show val_main_v43 (F := Ideal) x0 x1 (scores_reduce.lift (ix1 n) k) = _
      rw [e, score_at]
  have e44 : val_main_v44 (F := Ideal) x0 x1 (ix1 n)
      = Finset.univ.fold max (⊥ : EReal) (fun k : Fin 4096 => score (qrow x1 n) (keys x0) k) := by
    unfold val_main_v44
    refine (Host.reduce_eq_fold_single (FloatOps.maximumf (F := Ideal) (φ := .f32)) (val_main_v43 (F := Ideal) x0 x1) (val_main_cst_8 (F := Ideal))
      reducesTo_S16384x4096_S16384_d1 scores_reduce h_S_ (ix1 n)).trans ?_
    rw [hinit, hfun]
    rfl
  unfold shift
  rw [val_main_v46_apply, e45, e44]
  exact fold_max_real _ (fun k => score_real x0 x1 h0 h1 n k)

end Cert.Routing.Reference

end
-- ==== Proof.Finite.lean ====
/-
  From the precondition to real numbers.

  The precondition says of each float argument that every entry's absolute value is below `+∞`, the four tests
  joined by `and`. Read at its one index and taken apart, its first two conjuncts say so of the stack and of the
  query rows; an extended real whose absolute value is below `+∞` is neither infinity, so it is a real number.
  (Nothing is needed of the scale and shift vectors.) A finite sum of real numbers is a real number.
-/
import proofs.«415658_j76501957476790_3_alg».proof.Pre_finite_inputs
import proofs.«415658_j76501957476790_3_alg».proof.Proof.Gen.Pre_finite_inputs
import proofs.«415658_j76501957476790_3_alg».proof.Proof.RowMath
import Idealize.ShloMosaic.Lib.ReduceAll
import Idealize.ShloMosaic.Lib.ValueIdx
import Idealize.ShloMosaic.PureOps.Ideal.Laws

noncomputable section

namespace Cert.Routing

open Idealize.ShloMosaic Cert.Pre_finite_inputs

/-- The scalar shape has one index. -/
instance scalarIdx_subsingleton : Subsingleton Cert.Pre_finite_inputs.S_.Idx := ⟨fun a b => funext fun d => d.elim0⟩

/-- An extended real whose absolute value is below `+∞` (the f32 word of `+∞`) is a real number. -/
theorem real_of_abs_lt_inf (x : EReal)
    (h : Ideal.cmp .olt (max x (-x)) (Ideal.ofBits .f32 0x7F800000#32) = 1#1) : ∃ r : ℝ, x = r := by
  have hinf : Ideal.ofBits .f32 0x7F800000#32 = (⊤ : EReal) := by simp [Ideal.ofBits, Ideal.ieee]
  rw [hinf] at h
  induction x using EReal.rec with
  | bot => simp [Ideal.cmp] at h
  | top => simp [Ideal.cmp] at h
  | coe r => exact ⟨r, rfl⟩

/-- Under the precondition every entry of the stack and of the query rows is a real number. -/
theorem reals_of_pre (a0 : FVec Ideal S4x4096x10 .f32) (a1 : FVec Ideal S16384x10 .f32) (a2 a3 : FVec Ideal S10 .f32)
    (h : fn (F := Ideal) a0 a1 a2 a3 = fun _ => 1#1) :
    (∀ i, ∃ r : ℝ, a0 i = r) ∧ (∀ i, ∃ r : ℝ, a1 i = r) := by
  have h1 := congrFun h ValueIdx.ix0
  dsimp only [fn, fn_part1] at h1
  obtain ⟨h13, -⟩ := IntOp.andi_eq_one.1 h1
  obtain ⟨h8, -⟩ := IntOp.andi_eq_one.1 h13
  obtain ⟨h3, h7⟩ := IntOp.andi_eq_one.1 h8
  refine ⟨fun i => ?_, fun i => ?_⟩
  · have hi : Ideal.cmp .olt (max (a0 i) (-(a0 i))) (Ideal.ofBits .f32 0x7F800000#32) = 1#1 :=
      Host.reduce_andi_all _ _ _ _ _ h3 i
    exact real_of_abs_lt_inf _ hi
  · have hi : Ideal.cmp .olt (max (a1 i) (-(a1 i))) (Ideal.ofBits .f32 0x7F800000#32) = 1#1 :=
      Host.reduce_andi_all _ _ _ _ _ h7 i
    exact real_of_abs_lt_inf _ hi

/-- A finite sum of real numbers is a real number. -/
theorem sum_real {α : Type} [Fintype α] (f : α → EReal) (hf : ∀ j, ∃ r : ℝ, f j = r) : ∃ r : ℝ, ∑ j, f j = r := by
  choose g hg using hf
  exact ⟨∑ j, g j, by rw [show f = fun j => (g j : EReal) from funext hg]; exact coe_sum _ _⟩

end Cert.Routing

end
-- ==== Proof.lean ====
/-
  The kernel against its reference, over the extended reals.

  BOTH PROGRAMS compute, for each of 16384 query rows `q` (ten entries), against 4096 key rows (plane 1 of a stack
  of four planes) and 4096 value rows (the stack summed over its planes): the scores `s m = ∑ d, q d * key m d`;
  the softmax-weighted average of the value rows; the query row plus that average; and that row normalised (mean,
  biased variance plus a small constant, reciprocal square root), scaled by `γ` and shifted by `β`.

  THEY DIFFER in one place. The reference forms the softmax weights `exp (s m - M) / ∑ m', exp (s m' - M)` with
  `M` the row's greatest score, and then sums the weights against the values. The kernel forms no weights: it sums
  `exp (s m)` against the ten value columns AND against an eleventh column of ones in one matrix product, and
  divides the first ten sums by the eleventh. For real numbers these agree, whatever real `M` is: the factor
  `exp (-M)` is common to each weight's numerator and denominator, and division by the nonzero sum distributes
  over the finite sum (`Routing.avgSoftmax_eq_avgRatio`). That law needs finite numbers, so the precondition is
  used: under it the stack and the query rows hold real numbers (`Routing.reals_of_pre`), hence so are the scores,
  their greatest value `M` (`Routing.Reference.shift_real`) and the values. Everything after the average is the
  same function of the same row on both sides, and nothing is asked of `γ` and `β`. The kernel also leaves out the
  reference's first pass over the stack's plane 0, whose result the reference itself discards.

  THE PROOF. The idealized kernel's run ends with its result at `Routing.G` of the argument arrays: what one grid
  point computes at an entry (`Routing.Kernel.pay_apply`), what the host operations before the region left in the
  arrays it reads (`Routing.Kernel.keysArr_apply` and its fellows), and the 32 points' blocks covering the array
  (`Routing.Kernel.run`). The idealized reference's run ends, entry by entry, at the softmax form of the same row
  (`Routing.Reference.result_at`), which the law turns into `Routing.G`. The three frames are the programs' runs
  with the results dropped; the idealization rewrote nothing, so there is nothing to preserve.
-/
import proofs.«415658_j76501957476790_3_alg».proof.Defs
import proofs.«415658_j76501957476790_3_alg».proof.Proof.Gen.Kernel
import proofs.«415658_j76501957476790_3_alg».proof.Proof.Gen.Kernel.Skeleton
import proofs.«415658_j76501957476790_3_alg».proof.Proof.Gen.Kernel.Launch
import proofs.«415658_j76501957476790_3_alg».proof.Proof.Gen.Kernel.Points
import proofs.«415658_j76501957476790_3_alg».proof.Proof.Gen.Kernel.Frame
import proofs.«415658_j76501957476790_3_alg».proof.Proof.Gen.KernelIdeal
import proofs.«415658_j76501957476790_3_alg».proof.Proof.Gen.KernelIdeal.Skeleton
import proofs.«415658_j76501957476790_3_alg».proof.Proof.Gen.KernelIdeal.Launch
import proofs.«415658_j76501957476790_3_alg».proof.Proof.Gen.KernelIdeal.Points
import proofs.«415658_j76501957476790_3_alg».proof.Proof.Gen.KernelIdeal.Frame
import proofs.«415658_j76501957476790_3_alg».proof.Proof.Gen.ReferenceIdeal
import proofs.«415658_j76501957476790_3_alg».proof.Proof.Gen.Pre_finite_inputs
import proofs.«415658_j76501957476790_3_alg».proof.Proof.Gen.KernelIdeal.Value
import proofs.«415658_j76501957476790_3_alg».proof.Proof.Gen.ReferenceIdeal.Run
import proofs.«415658_j76501957476790_3_alg».proof.Proof.Gen.ReferenceIdeal.Read
import proofs.«415658_j76501957476790_3_alg».proof.Proof.KernelArray
import proofs.«415658_j76501957476790_3_alg».proof.Proof.RefRead
import proofs.«415658_j76501957476790_3_alg».proof.Proof.RefMax
import proofs.«415658_j76501957476790_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and hold finite numbers, both idealized programs end with the result array
    `Routing.G` of the arguments: the kernel by its run read block by block, the reference by its run read entry
    by entry and the law between the two forms of the attention average. -/
theorem algebraic : Cert.algebraic_KernelIdeal_ReferenceIdeal := by
  intro m ρ m' ρ' hpre hagree
  refine ⟨fun c => Cert.Routing.Kernel.result m c, Cert.Routing.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Routing.reals_of_pre _ _ _ _ (hpre c)
  rw [Cert.ReferenceIdeal.Read.val_main_v80_eq, (hagree c).1, (hagree c).2.1, (hagree c).2.2.1, (hagree c).2.2.2]
  funext i
  obtain ⟨n, d, rfl⟩ : ∃ (n : Fin 16384) (d : Fin 10), i = ix2 n d := ⟨i 0, i 1, eq_ix2 i⟩
  refine (Cert.Routing.Reference.result_at _ _ _ _ n d).trans ?_
  exact congrFun (Cert.Routing.rowR_eq_rowK _ _ _ _ _ _ (fun d' => h1 _) (fun k d' => h0 _)
    (fun k d' => Cert.Routing.sum_real _ (fun j => h0 _)) (Cert.Routing.Reference.shift_real _ _ h0 h1 n)) d

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
